-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S11008x4096 : Shape := ⟨2, ![11008, 4096]⟩
abbrev S11008 : Shape := ⟨1, ![11008]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S8192x4096 .f32) (main_arg1 : FVec F S11008x4096 .f32) (main_arg2 : FVec F S11008 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008 .f32 := Host.absf main_arg2
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S8192x4096 : Shape := ⟨2, ![8192, 4096]⟩
abbrev S11008x4096 : Shape := ⟨2, ![11008, 4096]⟩
abbrev S11008 : Shape := ⟨1, ![11008]⟩
abbrev S8192x11008 : Shape := ⟨2, ![8192, 11008]⟩
abbrev S2048x4096 : Shape := ⟨2, ![2048, 4096]⟩
abbrev S256x4096 : Shape := ⟨2, ![256, 4096]⟩
abbrev S256 : Shape := ⟨1, ![256]⟩
abbrev S2048x256 : Shape := ⟨2, ![2048, 256]⟩
abbrev S256x1 : Shape := ⟨2, ![256, 1]⟩
abbrev S1x256 : Shape := ⟨2, ![1, 256]⟩

abbrev nBuf : Space → Nat
  | .hbm => 5
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S11008x4096, .f32⟩
  | .hbm, ⟨2, _⟩ => ⟨S11008, .f32⟩
  | .hbm, ⟨3, _⟩ => ⟨S8192x4096, .bf16⟩
  | .hbm, ⟨4, _⟩ => ⟨S8192x11008, .f32⟩
  | .local _ .vmem, ⟨0, _⟩ => ⟨S2048x4096, .bf16⟩
  | .local _ .vmem, ⟨1, _⟩ => ⟨S2048x4096, .bf16⟩
  | .local _ .vmem, ⟨2, _⟩ => ⟨S256x4096, .f32⟩
  | .local _ .vmem, ⟨3, _⟩ => ⟨S256x4096, .f32⟩
  | .local _ .vmem, ⟨4, _⟩ => ⟨S256, .f32⟩
  | .local _ .vmem, ⟨5, _⟩ => ⟨S256, .f32⟩
  | .local _ .vmem, ⟨6, _⟩ => ⟨S2048x256, .f32⟩
  | .local _ .vmem, ⟨7, _⟩ => ⟨S2048x256, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  broadcasts_S256x1_S256x4096 : S256x1.Broadcasts S256x4096
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  dot_S2048x4096_S256x4096_S2048x256_1_1_0_0_n_n_wf : DotDims.WF S2048x4096 S256x4096 S2048x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x4096.size a ≤ S8192x4096.size a
  hwx0_0 : ∀ i : grid0.Coords, EltTy.bits .bf16 = 32 ∨ (Rect.block (s := S8192x4096) S2048x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .f32 = 32 ∨ (Rect.block (s := S11008x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S11008.size a
  hwx0_2 : ∀ i : grid0.Coords, EltTy.bits .f32 = 32 ∨ (Rect.block (s := S11008) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S8192x11008.size a
  hwx0_3 : ∀ i : grid0.Coords, EltTy.bits .f32 = 32 ∨ (Rect.block (s := S8192x11008) S2048x256.size (cc0_transform_3 i) (hinb0_3 i)).WholeWords (EltTy.packing .f32)

variable [Facts₀]

def dot_S2048x4096_S256x4096_S2048x256_1_1_0_0_n_n : DotDims S2048x4096 S256x4096 S2048x256 where
  lhsContracting := [1]
  rhsContracting := [1]
  lhsNonContracting := [0]
  rhsNonContracting := [0]
  lhsBatch := []
  rhsBatch := []
  wf := dot_S2048x4096_S256x4096_S2048x256_1_1_0_0_n_n_wf

abbrev win0_0 : Pipeline.Window sig grid0 :=
  Pipeline.Window.ofSpec (Memref.whole main_v0) S2048x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S11008x4096 : Shape := ⟨2, ![11008, 4096]⟩
abbrev S11008 : Shape := ⟨1, ![11008]⟩
abbrev S_ : Shape := ⟨0, ![]⟩
abbrev S11008x1 : Shape := ⟨2, ![11008, 1]⟩
abbrev S8192x11008 : Shape := ⟨2, ![8192, 11008]⟩
abbrev S1x11008 : Shape := ⟨2, ![1, 11008]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S11008x4096, .f32⟩
  | .hbm, ⟨2, _⟩ => ⟨S11008, .f32⟩
  | .hbm, ⟨3, _⟩ => ⟨S11008x4096, .f32⟩
  | .hbm, ⟨4, _⟩ => ⟨S_, .f32⟩
  | .hbm, ⟨5, _⟩ => ⟨S11008, .f32⟩
  | .hbm, ⟨6, _⟩ => ⟨S11008x1, .f32⟩
  | .hbm, ⟨7, _⟩ => ⟨S_, .f32⟩
  | .hbm, ⟨8, _⟩ => ⟨S11008x1, .f32⟩
  | .hbm, ⟨9, _⟩ => ⟨S11008x1, .f32⟩
  | .hbm, ⟨10, _⟩ => ⟨S11008x4096, .f32⟩
  | .hbm, ⟨11, _⟩ => ⟨S11008x4096, .f32⟩
  | .hbm, ⟨12, _⟩ => ⟨S11008x4096, .f32⟩
  | .hbm, ⟨13, _⟩ => ⟨S11008x4096, .f32⟩
  | .hbm, ⟨14, _⟩ => ⟨S11008x4096, .f32⟩
  | .hbm, ⟨15, _⟩ => ⟨S8192x11008, .f32⟩
  | .hbm, ⟨16, _⟩ => ⟨S1x11008, .f32⟩
  | .hbm, ⟨17, _⟩ => ⟨S8192x11008, .f32⟩
  | .hbm, ⟨18, _⟩ => ⟨S8192x11008, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  reducesTo_S11008x4096_S11008_d1 : S11008x4096.ReducesTo [1] S11008
  h_S_ : 0 < S_.numel
  bcast_S11008_S11008x1_0 : S11008.BroadcastsInDim S11008x1 (![0] : Fin 1 → Fin S11008x1.rank)
  bcast_S_S11008x1 : S_.BroadcastsInDim S11008x1 (![] : Fin 0 → Fin S11008x1.rank)
  bcast_S11008x1_S11008x4096_0_1 : S11008x1.BroadcastsInDim S11008x4096 (![0, 1] : Fin 2 → Fin S11008x4096.rank)
  bcast_S11008_S1x11008_1 : S11008.BroadcastsInDim S1x11008 (![1] : Fin 1 → Fin S1x11008.rank)
  bcast_S1x11008_S8192x11008_0_1 : S1x11008.BroadcastsInDim S8192x11008 (![0, 1] : Fin 2 → Fin S8192x11008.rank)
  dot_S8192x4096_S11008x4096_S8192x11008_1_1_0_0_n_n_wf : DotDims.WF S8192x4096 S11008x4096 S8192x11008 [1] [1] [0] [0] [] []

variable [Facts₀]

def dot_S8192x4096_S11008x4096_S8192x11008_1_1_0_0_n_n : DotDims S8192x4096 S11008x4096 S8192x11008 where
  lhsContracting := [1]
  rhsContracting := [1]
  lhsNonContracting := [0]
  rhsNonContracting := [0]
  lhsBatch := []
  rhsBatch := []
  wf := dot_S8192x4096_S11008x4096_S8192x11008_1_1_0_0_n_n_wf

class Facts : Prop extends Facts₀ where

variable [Facts]
-- ==== Proof.QuantSpec.lean ====
/-
  The quantized linear layer as one function of its three arrays.

  For a weight row r of length 4096 the scale is its mean absolute value, s(r) = (Σ_k |r k|) / 4096, and the quantized
  row is  q(r) k = roundHalfEven (r k / s(r)) · s(r).  The layer's output at (t, o) is
      Σ_k x(t, k) · q(w(o, ·)) k  +  b(o).
  Everything is read on the extended reals: the quotient is the total one of the ideal instance, the rounding fixes
  the infinities, and no rearrangement of the formula is used, so no finiteness assumption enters.
-/
import Idealize.ShloMosaic.PureOps.Ideal.Laws
import Idealize.ShloMosaic.Lib.ValueIdx

noncomputable section

namespace Cert.QuantLinear

open Idealize.ShloMosaic Idealize.ShloMosaic.ValueIdx

/-- The mean absolute value of a row: the sum of the entries' absolute values over the float 4096. -/
def absMean (r : Fin 4096 → EReal) : EReal :=
  Ideal.div (∑ k : Fin 4096, FloatOps.absf (F := Ideal) (φ := .f32) (r k)) (Ideal.ofBits .f32 0x45800000#32)

/-- An entry of a row quantized to the nearest (ties to even) multiple of the row's scale. -/
def quant (r : Fin 4096 → EReal) (k : Fin 4096) : EReal :=
  Ideal.liftRound Ideal.roundHalfEven (Ideal.div (r k) (absMean r)) * absMean r

/-- The layer: activations times the row-quantized weights, transposed, plus the bias. -/
def layer (x : (⟨2, ![8192, 4096]⟩ : Shape).Idx → EReal) (w : (⟨2, ![11008, 4096]⟩ : Shape).Idx → EReal)
    (b : (⟨1, ![11008]⟩ : Shape).Idx → EReal) : (⟨2, ![8192, 11008]⟩ : Shape).Idx → EReal :=
  fun j => (∑ k : Fin 4096, x (ix2 (j 0) k) * quant (fun k' => w (ix2 (j 1) k')) k) + b (ix1 (j 1))

/-- The quantized row depends on the row alone: rows that agree entry by entry quantize alike. -/
theorem quant_congr {r r' : Fin 4096 → EReal} (h : ∀ k, r k = r' k) : quant r = quant r' := by
  rw [show r = r' from funext h]

end Cert.QuantLinear

end
-- ==== Proof.LibTransposedDot.lean ====
/-
  A matrix product whose right operand is contracted on its LAST axis, read at an index, and the column
  layouts a per-row statistic passes through.

  For the dimension numbers "rows × contraction times columns × contraction" (no batch axis) the operand indices at the
  output index (p, q) and contraction index k are (p, k) and (q, k); so at the extended reals a `tpu.matmul` into the
  zero accumulator and a host `dot_general` are both  Σ_k l(p, k) · r(q, k),  a finite sum over the shared last axis.
  A sum along the last axis of a matrix, read at a row, is the sum of that row's entries; a vector recast as a
  one-column matrix reads the vector at the row, and a one-column matrix broadcast along the rows reads its column.
-/
import Idealize.ShloMosaic.PureOps.Ideal.Laws
import Idealize.ShloMosaic.Lib.ValueIdx
import Idealize.ShloMosaic.Lib.Pipeline.Value

noncomputable section

namespace Cert.LibTransposedDot

open Idealize.ShloMosaic Idealize.ShloMosaic.ValueIdx

variable {M K N : Nat}

/-- The contraction shape of such a product has one axis. -/
theorem tr_contr_rank : (DotDims.transposedRhs M K N).contr.rank = 1 := rfl
/-- Its extent is the shared dimension. -/
theorem tr_contr_size : (DotDims.transposedRhs M K N).contr.size ⟨0, by rw [tr_contr_rank]; exact Nat.one_pos⟩ = K := rfl

/-- The left operand's index at output (p, q) and contraction coordinate k is (p, k). -/
theorem tr_lhsIdx (j : (⟨2, ![M, N]⟩ : Shape).Idx) (k : Fin K) :
    (DotDims.transposedRhs M K N).lhsIdx j ((contrEquiv1 (DotDims.transposedRhs M K N) K tr_contr_rank tr_contr_size).symm k) = ix2 (j 0) k := by
  funext a
  refine Fin.ext ?_
  match a with
  | ⟨0, _⟩ => rfl
  | ⟨1, _⟩ =>
    exact ((DotDims.transposedRhs M K N).lhsIdx_val_of_single (cl := 1) rfl j _).trans
      (contrEquiv1_symm_val (DotDims.transposedRhs M K N) K tr_contr_rank tr_contr_size k)

/-- The right operand's index is (q, k): its row is the output's column. -/
theorem tr_rhsIdx (j : (⟨2, ![M, N]⟩ : Shape).Idx) (k : Fin K) :
    (DotDims.transposedRhs M K N).rhsIdx j ((contrEquiv1 (DotDims.transposedRhs M K N) K tr_contr_rank tr_contr_size).symm k) = ix2 (j 1) k := by
  funext a
  refine Fin.ext ?_
  match a with
  | ⟨0, _⟩ => rfl
  | ⟨1, _⟩ =>
    exact ((DotDims.transposedRhs M K N).rhsIdx_val_of_single (cr := 1) rfl j _).trans
      (contrEquiv1_symm_val (DotDims.transposedRhs M K N) K tr_contr_rank tr_contr_size k)

/-- The contraction sum over its one coordinate. -/
theorem tr_sum (l : (⟨2, ![M, K]⟩ : Shape).Idx → EReal) (r : (⟨2, ![N, K]⟩ : Shape).Idx → EReal) (j : (⟨2, ![M, N]⟩ : Shape).Idx) :
    ∑ k : (DotDims.transposedRhs M K N).contr.Idx, l ((DotDims.transposedRhs M K N).lhsIdx j k) * r ((DotDims.transposedRhs M K N).rhsIdx j k)
      = ∑ k : Fin K, l (ix2 (j 0) k) * r (ix2 (j 1) k) := by
  rw [← Equiv.sum_comp (contrEquiv1 (DotDims.transposedRhs M K N) K tr_contr_rank tr_contr_size).symm]
  exact Finset.sum_congr rfl fun k _ =>
    congrArg₂ (· * ·) (congrArg l (tr_lhsIdx j k)) (congrArg r (tr_rhsIdx j k))

/-- A `tpu.matmul` with these dimension numbers into the zero accumulator, at an index, whatever the operands' formats. -/
theorem matmul_tr_zero {φ₁ φ₂ : FTy} (prec : Option ContractPrecision) (l : FVec Ideal ⟨2, ![M, K]⟩ φ₁) (r : FVec Ideal ⟨2, ![N, K]⟩ φ₂)
    (j : (⟨2, ![M, N]⟩ : Shape).Idx) :
    FloatOps.matmul (DotDims.transposedRhs M K N) prec l r (constant ⟨2, ![M, N]⟩ .f32 0x00000000#32) j
      = ∑ k : Fin K, (l (ix2 (j 0) k) : EReal) * (r (ix2 (j 1) k) : EReal) := by
  rw [Ideal.matmul_constant_zero_apply]
  exact tr_sum l r j

/-- A host `dot_general` with these dimension numbers, at an index. -/
theorem dotGeneral_tr {φ₁ φ₂ : FTy} (prec : Option ContractPrecision) (sched : HostSchedule) (l : FVec Ideal ⟨2, ![M, K]⟩ φ₁) (r : FVec Ideal ⟨2, ![N, K]⟩ φ₂)
    (j : (⟨2, ![M, N]⟩ : Shape).Idx) :
    FloatOps.dotGeneral (DotDims.transposedRhs M K N) prec sched l r j
      = ∑ k : Fin K, (l (ix2 (j 0) k) : EReal) * (r (ix2 (j 1) k) : EReal) := by
  rw [Ideal.dotGeneral_apply]
  exact tr_sum l r j

/-! ## A per-row statistic: the sum along the last axis, and the column it is laid in -/

/-- A float sum along the last axis of a matrix, read at row `q`, is the sum of that row's entries. -/
theorem rowSum_apply {φ : FTy} {R C : Nat} (src : FVec Ideal ⟨2, ![R, C]⟩ φ) (acc : BitVec φ.bits)
    (h : (⟨2, ![R, C]⟩ : Shape).Reduces [1] ⟨1, ![R]⟩) (hφ : FKind.Formats φ) (hacc : acc = FKind.add.neutral φ hφ) (q : Fin R) :
    multiReduction .add [1] ⟨1, ![R]⟩ src acc h hφ hacc (ix1 q) = ∑ k : Fin C, (src (ix2 q k) : EReal) := by
  refine (Ideal.multiReduction_add_single src acc h hφ hacc (ix1 q)).trans ?_
  exact Finset.sum_congr rfl fun k _ => congrArg src (funext fun a => Fin.ext (by
    match a with
    | ⟨0, _⟩ => rfl
    | ⟨1, _⟩ => rfl))

/-- A vector recast as a one-column matrix reads, at (i, u), the vector at i. -/
theorem shapeCast_a_a1_apply {α : Type} {a : Nat} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column matrix broadcast along the rows reads, at (i, j), its column at i. -/
theorem broadcastTo_a1_ab_apply {α : Type} {a b : Nat} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibTransposedDot

end
-- ==== Proof.LibPlainDot.lean ====
/-
  A plain two-dimensional matrix product read at an index.

  For the dimension numbers "rows × contraction times contraction × columns" (no batch axis) the operand indices at the
  output index (p, q) and contraction index k are (p, k) and (k, q); so at the extended reals a `tpu.matmul` into the
  zero accumulator and a host `dot_general` are both  Σ_k l(p, k) · r(k, q),  a finite sum over the contracted axis.
  A transposed operand reads its source at the swapped index.
-/
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable {M K N : Nat}

/-- The contraction shape of a plain product has one axis. -/
theorem plain_contr_rank : (DotDims.plain M K N).contr.rank = 1 := rfl
/-- Its extent is the shared dimension. -/
theorem plain_contr_size : (DotDims.plain M K N).contr.size ⟨0, by rw [plain_contr_rank]; exact Nat.one_pos⟩ = K := rfl

/-- The left operand's index at output (p, q) and contraction coordinate k is (p, k). -/
theorem plain_lhsIdx (j : (⟨2, ![M, N]⟩ : Shape).Idx) (k : Fin K) :
    (DotDims.plain M K N).lhsIdx j ((contrEquiv1 (DotDims.plain M K N) K plain_contr_rank plain_contr_size).symm k) = ix2 (j 0) k := by
  funext a
  refine Fin.ext ?_
  match a with
  | ⟨0, _⟩ => rfl
  | ⟨1, _⟩ =>
    exact ((DotDims.plain M K N).lhsIdx_val_of_single (cl := 1) rfl j _).trans
      (contrEquiv1_symm_val (DotDims.plain M K N) K plain_contr_rank plain_contr_size k)

/-- The right operand's index is (k, q). -/
theorem plain_rhsIdx (j : (⟨2, ![M, N]⟩ : Shape).Idx) (k : Fin K) :
    (DotDims.plain M K N).rhsIdx j ((contrEquiv1 (DotDims.plain M K N) K plain_contr_rank plain_contr_size).symm k) = ix2 k (j 1) := by
  funext a
  refine Fin.ext ?_
  match a with
  | ⟨0, _⟩ =>
    exact ((DotDims.plain M K N).rhsIdx_val_of_single (cr := 0) rfl j _).trans
      (contrEquiv1_symm_val (DotDims.plain M K N) K plain_contr_rank plain_contr_size k)
  | ⟨1, _⟩ => rfl

/-- The contraction sum of a plain product over its one coordinate. -/
theorem plain_sum (l : (⟨2, ![M, K]⟩ : Shape).Idx → EReal) (r : (⟨2, ![K, N]⟩ : Shape).Idx → EReal) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K plain_contr_rank plain_contr_size).symm]
  exact Finset.sum_congr rfl fun k _ =>
    congrArg₂ (· * ·) (congrArg l (plain_lhsIdx j k)) (congrArg r (plain_rhsIdx j k))

/-- A `tpu.matmul` with plain dimension numbers into the zero accumulator, at an index, whatever the operands' formats. -/
theorem matmul_plain_zero {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    FloatOps.matmul (DotDims.plain M K N) prec l r (constant ⟨2, ![M, N]⟩ .f32 0x00000000#32) j
      = ∑ k : Fin K, (l (ix2 (j 0) k) : EReal) * (r (ix2 k (j 1)) : EReal) := by
  rw [Ideal.matmul_constant_zero_apply]
  exact plain_sum l r j

/-- A host `dot_general` with plain dimension numbers, at an index. -/
theorem dotGeneral_plain {φ₁ φ₂ : FTy} (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral (DotDims.plain M K N) prec sched l r j
      = ∑ k : Fin K, (l (ix2 (j 0) k) : EReal) * (r (ix2 k (j 1)) : EReal) := by
  rw [Ideal.dotGeneral_apply]
  exact plain_sum l r j

/-! ## Layout reads the dense layers need -/

/-- A two-dimensional transpose reads its source at the swapped index. -/
theorem transpose2_apply {α : Type} {A B : Nat} (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) fun c => by
    match c with
    | ⟨0, _⟩ => rfl
    | ⟨1, _⟩ => rfl

/-- A vector recast as a one-row matrix and broadcast down the rows (a kernel's bias) reads, at (p, q), the vector at q. -/
theorem rowBroadcastTo_apply {α : Type} {R C : Nat} (v : (⟨1, ![C]⟩ : Shape).Idx → α)
    (h1 : (⟨1, ![C]⟩ : Shape).ShapeCasts ⟨2, ![1, C]⟩) (h2 : (⟨2, ![1, C]⟩ : Shape).Broadcasts ⟨2, ![R, C]⟩)
    (p : Fin R) (q : Fin C) :
    broadcastTo ⟨2, ![R, C]⟩ (shapeCast ⟨2, ![1, C]⟩ v h1) h2 (ix2 p q) = v (ix1 q) := by
  rw [broadcastTo_apply (shapeCast ⟨2, ![1, C]⟩ v h1) h2 (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact shapeCast_apply v h1 (ix2 (0 : Fin 1) q) (ix1 q) (by
    rw [Shape.rowMajor_val_one, Shape.rowMajor_val_two]
    show q.val = (0 : Nat) * C + q.val
    omega)

/-- The host's form of the same bias: a vector laid along the second axis by two `broadcast_in_dim`s reads, at (p, q), the vector at q. -/
theorem rowBroadcastInDim_apply {α : Type} {R C : Nat} (v : (⟨1, ![C]⟩ : Shape).Idx → α)
    (h1 : (⟨1, ![C]⟩ : Shape).BroadcastsInDim ⟨2, ![1, C]⟩ ![1]) (h2 : (⟨2, ![1, C]⟩ : Shape).BroadcastsInDim ⟨2, ![R, C]⟩ ![0, 1])
    (p : Fin R) (q : Fin C) :
    broadcastInDim ⟨2, ![R, C]⟩ ![0, 1] h2 (broadcastInDim ⟨2, ![1, C]⟩ ![1] h1 v) (ix2 p q) = v (ix1 q) := by
  rw [broadcastInDim_apply ![0, 1] h2 _ (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact broadcastInDim_apply ![1] h1 v (ix2 (0 : Fin 1) q) (ix1 q) (fun a => by
    match a with
    | ⟨0, _⟩ =>
      show q.val = if C = 1 then 0 else q.val
      split
      · have := q.isLt; omega
      · rfl)

end Cert.LibPlainDot

end
-- ==== Proof.KernelBody.lean ====
/-
  The kernel body's one store, read at an index of its block.

  From a block of 256 weight rows, a block of 2048 activation rows and the matching 256 bias entries the body computes,
  at (p, q):  Σ_k x(p, k) · q(w(q, ·)) k + b(q),  where q(·) is the row quantization of the layer: the row's absolute values
  are summed, recast as a column, divided by 4096.0; the block is divided by that column broadcast along the rows,
  rounded half-to-even, multiplied by the column again; the product with the activations contracts the shared last axis
  into a zero accumulator. The changes of float format are identities on the extended reals.
-/
import proofs.«171443_j44427141710301_1_alg».proof.Proof.Gen.KernelIdeal.Skeleton
import proofs.«171443_j44427141710301_1_alg».proof.Proof.QuantSpec
import proofs.«171443_j44427141710301_1_alg».proof.Proof.LibTransposedDot
import proofs.«171443_j44427141710301_1_alg».proof.Proof.LibPlainDot

noncomputable section

namespace Cert.QuantLinear.Body

open Cert.KernelIdeal Cert.KernelIdeal.Gen Idealize.ShloMosaic Idealize.ShloMosaic.TcCoe Idealize.ShloMosaic.ValueIdx
open Cert.QuantLinear Cert.LibTransposedDot

/-- The body's scale column at row `q` is the mean absolute value of the block's row `q`. -/
theorem scaleCol_apply (w : FVec Ideal S256x4096 .f32) (h1 : S256x4096.Reduces [1] S256) (hφ : FKind.Formats .f32)
    (hacc : (0x00000000#32 : BitVec (FTy.bits .f32)) = FKind.add.neutral .f32 hφ) (h2 : S256.ShapeCasts S256x1) (q : Fin 256) (u : Fin 1) :
    divf (shapeCast S256x1 (multiReduction .add [1] S256 (absf w) 0x00000000#32 h1 hφ hacc) h2)
        (broadcast S256x1 (Scalar.ofBits (F := Ideal) .f32 0x45800000#32)) (ix2 q u)
      = absMean (fun k => w (ix2 q k)) := by
  show Ideal.div (shapeCast S256x1 (multiReduction .add [1] S256 (absf w) 0x00000000#32 h1 hφ hacc) h2 (ix2 q u)) _ = Ideal.div _ _
  refine congrArg (Ideal.div · _) ?_
  exact (shapeCast_a_a1_apply _ h2 q u).trans (rowSum_apply (absf w) _ h1 hφ hacc q)

/-- The product's dimension numbers are the library's "right operand contracted on its last axis". -/
theorem dot_eq : dot_S2048x4096_S256x4096_S2048x256_1_1_0_0_n_n = DotDims.transposedRhs 2048 4096 256 := rfl

/-- The stored value at (p, q) of the block. -/
theorem pay_apply (w : FVec Ideal S256x4096 .f32) (x : FVec Ideal S2048x4096 .bf16) (b : FVec Ideal S256 .f32) (p : Fin 2048) (q : Fin 256) :
    k0_pay1 (F := Ideal) w x b (ix2 p q)
      = (∑ k : Fin 4096, (x (ix2 p k) : EReal) * quant (fun k' => w (ix2 q k')) k) + b (ix1 q) := by
  unfold k0_pay1
  refine congrArg₂ (· + ·) ?_ (Cert.LibPlainDot.rowBroadcastTo_apply b _ _ p q)
  refine (matmul_tr_zero none _ _ (ix2 p q)).trans ?_
  refine Finset.sum_congr rfl fun k _ => congrArg₂ (· * ·) ?_ ?_
  · exact congrFun (shapeCast_self x _) (ix2 p k)
  · show Ideal.liftRound Ideal.roundHalfEven (Ideal.div (w (ix2 q k)) (broadcastTo S256x4096 _ _ (ix2 q k))) * broadcastTo S256x4096 _ _ (ix2 q k) = _
    rw [broadcastTo_a1_ab_apply]
    exact congrArg (fun s => Ideal.liftRound Ideal.roundHalfEven (Ideal.div (w (ix2 q k)) s) * s)
      (scaleCol_apply w _ _ _ _ q (0 : Fin 1))

end Cert.QuantLinear.Body

end
-- ==== Proof.KernelArray.lean ====
/-
  The kernel's result array after the run is the layer of the three argument arrays.

  The grid has 4 × 43 points; point (i, n) stages activation rows 2048 i … 2048 i + 2047, weight rows and bias entries
  256 n … 256 n + 255, and writes the 2048 × 256 block (i, n) of the result. A block of the weight holds whole rows, so
  the row quantization computed inside the block is the row quantization of the whole weight; the activations the region
  stages are the argument after a change of float format, the identity on the extended reals. Hence what point (i, n)
  writes back is block (i, n) of the layer, and the 172 blocks tile the result.
-/
import proofs.«171443_j44427141710301_1_alg».proof.Proof.Gen.KernelIdeal.Value
import proofs.«171443_j44427141710301_1_alg».proof.Proof.KernelBody
import Idealize.ShloMosaic.Lib.Pipeline.Value
import Idealize.ShloMosaic.Lib.StableHlo.Run

noncomputable section

namespace Cert.QuantLinear.Array

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)
open Cert.QuantLinear

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The three argument arrays on core `c`, as functions of an index into the extended reals. -/
abbrev X (c : Dev nD) : S8192x4096.Idx → EReal := m ((c : Thread nD τ).loc main_arg0)
abbrev W (c : Dev nD) : S11008x4096.Idx → EReal := m ((c : Thread nD τ).loc main_arg1)
abbrev B (c : Dev nD) : S11008.Idx → EReal := m ((c : Thread nD τ).loc main_arg2)

/-- The activations as the region finds them are argument 0: the host's change of format is the identity here. -/
theorem V_x (c : Dev nD) : (V m c main_v0 : S8192x4096.Idx → EReal) = X m c := by
  dsimp only [Gen.V, Gen.hostOps0]
  after_results
  rfl

/-- The printed index maps over the 172 points: the activation window follows the output's block row, the weight and
    bias windows its block column, and the block indices stay in 4 × 43. -/
theorem idx_facts : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 1) = win0_3.index t (1 : Fin 2)
    ∧ win0_3.index t (0 : Fin 2) < 4 ∧ win0_3.index t (1 : Fin 2) < 43 :=
  (by decide +kernel : ∀ t : Fin grid0.N, _)

/-- Every block of the 4 × 43 tiling is some point's. -/
theorem idx_onto : ∀ (q0 : Fin 4) (q1 : Fin 43), ∃ t : Fin cfg0.N, win0_3.index t = ![q0.val, q1.val] :=
  (by decide +kernel : ∀ (q0 : Fin 4) (q1 : Fin 43), ∃ t : Fin grid0.N, win0_3.index t = ![q0.val, q1.val])

/-- The activation block at point `t` holds rows of argument 0. -/
theorem xblk_apply (c : Dev nD) (t : Fin cfg0.N) (p : Fin 2048) (k : Fin 4096) (r : Fin 8192)
    (hr : r.val = win0_3.index t (0 : Fin 2) * 2048 + p.val) :
    (iblk m c 0 t : FVec Ideal S2048x4096 .bf16) (ix2 p k) = X m c (ix2 r k) := by
  obtain ⟨e00, e01, -⟩ := idx_facts t
  unfold iblk
  rw [View.read_apply]
  show (V m c main_v0 : S8192x4096.Idx → EReal) _ = _
  rw [V_x]
  refine congrArg (X m c) (funext fun a => Fin.ext ?_)
  match a with
  | ⟨0, _⟩ => show win0_0.index t (0 : Fin 2) * 2048 + 1 * p.val = r.val; rw [e00, hr]; omega
  | ⟨1, _⟩ => show win0_0.index t (1 : Fin 2) * 4096 + 1 * k.val = k.val; rw [e01]; omega

/-- The weight block at point `t` holds whole rows of argument 1. -/
theorem wblk_apply (c : Dev nD) (t : Fin cfg0.N) (q : Fin 256) (k : Fin 4096) (o : Fin 11008)
    (ho : o.val = win0_3.index t (1 : Fin 2) * 256 + q.val) :
    (iblk m c 1 t : FVec Ideal S256x4096 .f32) (ix2 q k) = W m c (ix2 o k) := by
  obtain ⟨-, -, e10, e11, -⟩ := idx_facts t
  unfold iblk
  rw [View.read_apply]
  show (V m c main_arg1 : S11008x4096.Idx → EReal) _ = _
  rw [V_main_arg1]
  refine congrArg (W m c) (funext fun a => Fin.ext ?_)
  match a with
  | ⟨0, _⟩ => show win0_1.index t (0 : Fin 2) * 256 + 1 * q.val = o.val; rw [e10, ho]; omega
  | ⟨1, _⟩ => show win0_1.index t (1 : Fin 2) * 4096 + 1 * k.val = k.val; rw [e11]; omega

/-- The bias block at point `t` holds entries of argument 2. -/
theorem bblk_apply (c : Dev nD) (t : Fin cfg0.N) (q : Fin 256) (o : Fin 11008)
    (ho : o.val = win0_3.index t (1 : Fin 2) * 256 + q.val) :
    (iblk m c 2 t : FVec Ideal S256 .f32) (ix1 q) = B m c (ix1 o) := by
  obtain ⟨-, -, -, -, e20, -⟩ := idx_facts t
  unfold iblk
  rw [View.read_apply]
  show (V m c main_arg2 : S11008.Idx → EReal) _ = _
  rw [V_main_arg2]
  refine congrArg (B m c) (funext fun a => Fin.ext ?_)
  match a with
  | ⟨0, _⟩ => show win0_2.index t (0 : Fin 1) * 256 + 1 * q.val = o.val; rw [e20, ho]; omega

/-- What point `t` writes back is block `t` of the layer of the argument arrays. -/
theorem flushed_eq (c : Dev nD) (t : Fin cfg0.N) :
    (dats m 0 c).flushed 3 t = ((cfg0.win 3).blk t).view.read (Elt Ideal) (layer (X m c) (W m c) (B m c)) := by
  rw [flushed3]
  unfold out0_3
  rw [View.canon_unit_zero hz2]
  simp only [View.ld_unit_zero (S := S256x4096) hz2, View.ld_unit_zero (S := S2048x4096) hz2, View.ld_unit_zero (S := S256) hz1]
  obtain ⟨-, -, -, -, -, b0, b1⟩ := idx_facts t
  funext y
  obtain ⟨p, q, rfl⟩ : ∃ (p : Fin 2048) (q : Fin 256), y = ix2 p q := ⟨y 0, y 1, eq_ix2 y⟩
  have hp := p.isLt
  have hq := q.isLt
  show k0_pay1 (F := Ideal) (iblk m c 1 t) (iblk m c 0 t) (iblk m c 2 t) (ix2 p q)
    = layer (X m c) (W m c) (B m c) (((cfg0.win 3).blk t).view.emb (ix2 p q))
  have hemb : ((cfg0.win 3).blk t).view.emb (ix2 p q)
      = ix2 (⟨win0_3.index t (0 : Fin 2) * 2048 + p.val, by omega⟩ : Fin 8192) (⟨win0_3.index t (1 : Fin 2) * 256 + q.val, by omega⟩ : Fin 11008) := by
    funext a
    apply Fin.ext
    match a with
    | ⟨0, _⟩ => show win0_3.index t (0 : Fin 2) * 2048 + 1 * p.val = win0_3.index t (0 : Fin 2) * 2048 + p.val; omega
    | ⟨1, _⟩ => show win0_3.index t (1 : Fin 2) * 256 + 1 * q.val = win0_3.index t (1 : Fin 2) * 256 + q.val; omega
  rw [hemb]
  refine (Body.pay_apply (iblk m c 1 t) (iblk m c 0 t) (iblk m c 2 t) p q).trans ?_
  refine congrArg₂ (· + ·) (Finset.sum_congr rfl fun k _ => congrArg₂ (· * ·) (xblk_apply m c t p k _ rfl) ?_) (bblk_apply m c t q _ rfl)
  exact congrFun (quant_congr fun k' => wblk_apply m c t q k' _ rfl) k

/-- An index of the result is in point `t`'s block iff each coordinate is in the block's range on its axis. -/
theorem mem_blk (t : Fin cfg0.N) (i : S8192x11008.Idx) :
    i ∈ ((cfg0.win 3).blk t).view.set ↔ ∀ a : Fin 2, win0_3.index t a * S2048x256.size a ≤ (i a).val ∧ (i a).val < win0_3.index t a * S2048x256.size a + S2048x256.size a := by
  show i ∈ ((View.whole main_v1).slice (win0_3.rect t)).set ↔ _
  rw [View.set_slice_whole, Rect.mem_set_unit]
  exact Iff.rfl

/-- The blocks tile the result: row r lies in block row r / 2048, column o in block column o / 256. -/
theorem cover (i : S8192x11008.Idx) : ∃ t : Fin cfg0.N, (cfg0.win 3).flush t = true ∧ i ∈ ((cfg0.win 3).blk t).view.set := by
  have hi0 : (i 0).val < 8192 := (i 0).isLt
  have hi1 : (i 1).val < 11008 := (i 1).isLt
  obtain ⟨t, ht⟩ := idx_onto ⟨(i 0).val / 2048, by omega⟩ ⟨(i 1).val / 256, by omega⟩
  have q0 : win0_3.index t (0 : Fin 2) = (i 0).val / 2048 := congrFun ht 0
  have q1 : win0_3.index t (1 : Fin 2) = (i 1).val / 256 := congrFun ht 1
  refine ⟨t, flush0_3 t, ?_⟩
  rw [mem_blk]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 256 ≤ (i 1).val ∧ (i 1).val < win0_3.index t (1 : Fin 2) * 256 + 256; omega

/-- The result array after the run. -/
theorem final (c : Dev nD) : (dats m 0 c).arrAt 3 cfg0.N = layer (X m c) (W m c) (B m c) :=
  (dats m 0 c).arrAt_eq_of_cover 3 (layer (X m c) (W m c) (B m c)) (fun t _ => flushed_eq m c t) cover

/-- The run, read: the result at the layer of the arguments, the arguments unchanged. -/
theorem run : θ_run defs (onTc (τ := τ) (main (F := Ideal))) ⟨m, fun _ => 0, ρ⟩ fun r => ∀ c : Dev nD,
      r.2.mem ((c : Thread nD τ).loc main_v1) = layer (X m c) (W m c) (B m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.QuantLinear.Array

end
-- ==== Proof.RefLayer.lean ====
/-
  The reference computes the layer: read at an index, its sixteen host operations compose to the layer's formula.

  The weight's absolute values are summed along each row from the initial value zero and divided by 4096.0, giving the
  row's scale in a column; the weight is divided by that column, rounded half-to-even, multiplied by it again; the
  activations are contracted with the result along the shared last axis; the bias is laid along the columns and added.
-/
import proofs.«171443_j44427141710301_1_alg».proof.Proof.Gen.ReferenceIdeal.Read
import proofs.«171443_j44427141710301_1_alg».proof.Proof.QuantSpec

noncomputable section

namespace Cert.QuantLinear.Ref

open Cert.ReferenceIdeal Cert.ReferenceIdeal.Gen Cert.ReferenceIdeal.Read Idealize.ShloMosaic Idealize.ShloMosaic.ValueIdx
open Cert.QuantLinear

/-- The scale column at row `o` is the mean absolute value of the weight's row `o`. -/
theorem scale_apply (w : (⟨S11008x4096, .f32⟩ : BufTy).Contents (Elt Ideal)) (o : Fin 11008) (u : Fin 1) :
    val_main_v4 (F := Ideal) w (ix2 o u) = absMean (fun k => w (ix2 o k)) := by
  rw [val_main_v4_apply, val_main_v2_apply, val_main_v1_apply, val_main_v3_apply, val_main_cst_0_apply, val_main_cst_apply]
  show Ideal.div (Ideal.ofBits .f32 0x00000000#32 + _) _ = Ideal.div _ _
  rw [Ideal.ofBits_zero_f32, zero_add]
  refine congrArg (Ideal.div · _) (Finset.sum_congr rfl fun k _ => ?_)
  rw [val_main_v0_apply]
  exact congrArg (fun i => FloatOps.absf (F := Ideal) (φ := .f32) (w i)) (funext fun a => Fin.ext (by
    match a with
    | ⟨0, _⟩ => rfl
    | ⟨1, _⟩ => rfl))

/-- The quantized weight at (o, k). -/
theorem qweight_apply (w : (⟨S11008x4096, .f32⟩ : BufTy).Contents (Elt Ideal)) (o : Fin 11008) (k : Fin 4096) :
    val_main_v9 (F := Ideal) w (ix2 o k) = quant (fun k' => w (ix2 o k')) k := by
  have e5 : idx_main_v5 (ix2 o k) = ix2 o (0 : Fin 1) := funext fun a => Fin.ext (by
    match a with
    | ⟨0, _⟩ => rfl
    | ⟨1, _⟩ => rfl)
  have e8 : idx_main_v8 (ix2 o k) = ix2 o (0 : Fin 1) := funext fun a => Fin.ext (by
    match a with
    | ⟨0, _⟩ => rfl
    | ⟨1, _⟩ => rfl)
  rw [val_main_v9_apply, val_main_v7_apply, val_main_v6_apply, val_main_v5_apply, val_main_v8_apply, e5, e8, scale_apply]
  rfl

/-- The reference's result is the layer of its three arguments. -/
theorem result_eq (x : (⟨S8192x4096, .f32⟩ : BufTy).Contents (Elt Ideal)) (w : (⟨S11008x4096, .f32⟩ : BufTy).Contents (Elt Ideal))
    (b : (⟨S11008, .f32⟩ : BufTy).Contents (Elt Ideal)) :
    val_main_v13 (F := Ideal) x w b = layer x w b := by
  funext i
  obtain ⟨t, o, rfl⟩ : ∃ (t : Fin 8192) (o : Fin 11008), i = ix2 t o := ⟨i 0, i 1, eq_ix2 i⟩
  rw [val_main_v13_apply, val_main_v10_apply, val_main_v12_apply, val_main_v11_apply]
  refine congrArg₂ (· + ·) (Finset.sum_congr rfl fun k _ => congrArg₂ (· * ·) (congrArg x ?_) ?_) (congrArg b ?_)
  · exact funext fun a => Fin.ext (by
      match a with
      | ⟨0, _⟩ => rfl
      | ⟨1, _⟩ => rfl)
  · have er : ridx_main_v10 (ix2 t o) k = ix2 o k := funext fun a => Fin.ext (by
      match a with
      | ⟨0, _⟩ => rfl
      | ⟨1, _⟩ => rfl)
    rw [er, qweight_apply]
  · exact funext fun a => Fin.ext (by
      match a with
      | ⟨0, _⟩ => rfl)

end Cert.QuantLinear.Ref

end
-- ==== Proof.lean ====
/-
  A linear layer with row-quantized weights: the Pallas kernel against its jnp reference, over the extended reals.

  Both programs compute, for activations x : [8192, 4096], weight w : [11008, 4096] and bias b : [11008],
      out(t, o) = Σ_k x(t, k) · q(w(o, ·)) k + b(o),    q(r) k = roundHalfEven (r k / s(r)) · s(r),    s(r) = (Σ_k |r k|) / 4096.
  The kernel tiles the output in 4 × 43 blocks of 2048 × 256; a point stages 2048 activation rows, 256 whole weight rows
  and their 256 bias entries, quantizes the weight rows inside the block, and contracts the shared last axis on the matrix
  unit into a zero accumulator. Since a block holds whole weight rows, the scale computed inside a block is the scale of
  the row in the whole array, and the blocks assemble to the formula above (Proof/KernelArray.lean over Proof/KernelBody.lean).
  The reference computes the same formula with host operations (Proof/RefLayer.lean). The two sides perform the same
  operations on the same operands — only the tiling and the changes of float format differ, and those are identities on the
  extended reals — so no algebraic law and no finiteness of the inputs is used: the precondition is never opened.
  The ideal pass rewrote nothing, so the idealization claim is trivial; the kernel's two frames are the generated ones, the
  reference's frame is its run with the result dropped.
-/
import proofs.«171443_j44427141710301_1_alg».proof.Defs
import proofs.«171443_j44427141710301_1_alg».proof.Proof.Gen.Kernel
import proofs.«171443_j44427141710301_1_alg».proof.Proof.Gen.Kernel.Skeleton
import proofs.«171443_j44427141710301_1_alg».proof.Proof.Gen.Kernel.Launch
import proofs.«171443_j44427141710301_1_alg».proof.Proof.Gen.Kernel.Points
import proofs.«171443_j44427141710301_1_alg».proof.Proof.Gen.Kernel.Frame
import proofs.«171443_j44427141710301_1_alg».proof.Proof.Gen.KernelIdeal
import proofs.«171443_j44427141710301_1_alg».proof.Proof.Gen.KernelIdeal.Skeleton
import proofs.«171443_j44427141710301_1_alg».proof.Proof.Gen.KernelIdeal.Launch
import proofs.«171443_j44427141710301_1_alg».proof.Proof.Gen.KernelIdeal.Points
import proofs.«171443_j44427141710301_1_alg».proof.Proof.Gen.KernelIdeal.Frame
import proofs.«171443_j44427141710301_1_alg».proof.Proof.Gen.ReferenceIdeal
import proofs.«171443_j44427141710301_1_alg».proof.Proof.Gen.Pre_finite_inputs
import proofs.«171443_j44427141710301_1_alg».proof.Proof.Gen.KernelIdeal.Value
import proofs.«171443_j44427141710301_1_alg».proof.Proof.Gen.ReferenceIdeal.Run
import proofs.«171443_j44427141710301_1_alg».proof.Proof.Gen.ReferenceIdeal.Read
import proofs.«171443_j44427141710301_1_alg».proof.Proof.KernelArray
import proofs.«171443_j44427141710301_1_alg».proof.Proof.RefLayer
import Idealize.ShloMosaic.Adequacy
import Idealize.ShloMosaic.Init

noncomputable section

namespace Cert.Proof

open Idealize.ShloMosaic Idealize.SL.Sem

/-- The word-level kernel runs and leaves its arguments alone. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments alone: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, the kernel's result array and the reference's both end at the layer of the arguments. -/
theorem algebraic : Cert.algebraic_KernelIdeal_ReferenceIdeal := by
  intro m ρ m' ρ' _ hagree
  refine ⟨fun c => Cert.QuantLinear.layer (Cert.QuantLinear.Array.X m c) (Cert.QuantLinear.Array.W m c) (Cert.QuantLinear.Array.B m c),
    Cert.QuantLinear.Array.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v13_eq _ _ _).trans (Cert.QuantLinear.Ref.result_eq _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
